-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S1x128 : Shape := ⟨2, ![1, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S200000x128 .f32) (main_arg1 : FVec F S200000x128 .f32) (main_arg2 : FVec F S1x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S200000x128 : Shape := ⟨2, ![200000, 128]⟩
abbrev S1x128 : Shape := ⟨2, ![1, 128]⟩
abbrev S2000x128 : Shape := ⟨2, ![2000, 128]⟩
abbrev S1x200000x128 : Shape := ⟨3, ![1, 200000, 128]⟩
abbrev S2x200000x128 : Shape := ⟨3, ![2, 200000, 128]⟩

abbrev nBuf : Space → Nat
  | .hbm => 8
  | .vmem => 9
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S1x128, .f32⟩
  | .hbm, ⟨3, _⟩ => ⟨S200000x128, .f32⟩
  | .hbm, ⟨4, _⟩ => ⟨S200000x128, .f32⟩
  | .hbm, ⟨5, _⟩ => ⟨S1x200000x128, .f32⟩
  | .hbm, ⟨6, _⟩ => ⟨S1x200000x128, .f32⟩
  | .hbm, ⟨7, _⟩ => ⟨S2x200000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S1x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S2000x128_S2000x128_0_0 : ∀ a, (![0, 0] : Fin 2 → Nat) a + S2000x128.size a ≤ S2000x128.size a
  h_S2000x128 : 0 < S2000x128.numel
  inb_S1x128_S1x128_0_0 : ∀ a, (![0, 0] : Fin 2 → Nat) a + S1x128.size a ≤ S1x128.size a
  h_S1x128 : 0 < S1x128.numel
  broadcasts_S1x128_S2000x128 : S1x128.Broadcasts S2000x128
  bcast_S200000x128_S1x200000x128_1_2 : S200000x128.BroadcastsInDim S1x200000x128 (![1, 2] : Fin 2 → Fin S1x200000x128.rank)
  concatenates_S1x200000x128_S1x200000x128_S2x200000x128_d0 : Shape.Concatenates [S1x200000x128, S1x200000x128] S2x200000x128 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S200000x128.size a
  hwx0_1 : ∀ i : grid0.Coords, EltTy.bits .f32 = 32 ∨ (Rect.block (s := S200000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S200000x128.size a
  hwx0_3 : ∀ i : grid0.Coords, EltTy.bits .f32 = 32 ∨ (Rect.block (s := S200000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S200000x128.size a
  hwx0_4 : ∀ i : grid0.Coords, EltTy.bits .f32 = 32 ∨ (Rect.block (s := S200000x128) S2000x128.size (cc0_transform_4 i) (hinb0_4 i)).WholeWords (EltTy.packing .f32)

variable [Facts₀]

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S200000x128 : Shape := ⟨2, ![200000, 128]⟩
abbrev S1x128 : Shape := ⟨2, ![1, 128]⟩
abbrev S_ : Shape := ⟨0, ![]⟩
abbrev S1x200000x128 : Shape := ⟨3, ![1, 200000, 128]⟩
abbrev S2x200000x128 : Shape := ⟨3, ![2, 200000, 128]⟩

abbrev nBuf : Space → Nat
  | .hbm => 27
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S1x128, .f32⟩
  | .hbm, ⟨3, _⟩ => ⟨S200000x128, .f32⟩
  | .hbm, ⟨4, _⟩ => ⟨S200000x128, .f32⟩
  | .hbm, ⟨5, _⟩ => ⟨S200000x128, .f32⟩
  | .hbm, ⟨6, _⟩ => ⟨S200000x128, .f32⟩
  | .hbm, ⟨7, _⟩ => ⟨S_, .f32⟩
  | .hbm, ⟨8, _⟩ => ⟨S200000x128, .f32⟩
  | .hbm, ⟨9, _⟩ => ⟨S200000x128, .i1⟩
  | .hbm, ⟨10, _⟩ => ⟨S_, .f32⟩
  | .hbm, ⟨11, _⟩ => ⟨S_, .f32⟩
  | .hbm, ⟨12, _⟩ => ⟨S200000x128, .f32⟩
  | .hbm, ⟨13, _⟩ => ⟨S200000x128, .f32⟩
  | .hbm, ⟨14, _⟩ => ⟨S200000x128, .f32⟩
  | .hbm, ⟨15, _⟩ => ⟨S200000x128, .f32⟩
  | .hbm, ⟨16, _⟩ => ⟨S_, .f32⟩
  | .hbm, ⟨17, _⟩ => ⟨S200000x128, .f32⟩
  | .hbm, ⟨18, _⟩ => ⟨S200000x128, .f32⟩
  | .hbm, ⟨19, _⟩ => ⟨S200000x128, .f32⟩
  | .hbm, ⟨20, _⟩ => ⟨S200000x128, .f32⟩
  | .hbm, ⟨21, _⟩ => ⟨S200000x128, .f32⟩
  | .hbm, ⟨22, _⟩ => ⟨S200000x128, .f32⟩
  | .hbm, ⟨23, _⟩ => ⟨S200000x128, .f32⟩
  | .hbm, ⟨24, _⟩ => ⟨S1x200000x128, .f32⟩
  | .hbm, ⟨25, _⟩ => ⟨S1x200000x128, .f32⟩
  | .hbm, ⟨26, _⟩ => ⟨S2x200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S200000x128 : S_.BroadcastsInDim S200000x128 (![] : Fin 0 → Fin S200000x128.rank)
  bcast_S1x128_S200000x128_0_1 : S1x128.BroadcastsInDim S200000x128 (![0, 1] : Fin 2 → Fin S200000x128.rank)
  bcast_S200000x128_S1x200000x128_1_2 : S200000x128.BroadcastsInDim S1x200000x128 (![1, 2] : Fin 2 → Fin S1x200000x128.rank)
  concatenates_S1x200000x128_S1x200000x128_S2x200000x128_d0 : Shape.Concatenates [S1x200000x128, S1x200000x128] S2x200000x128 0

variable [Facts₀]

class Facts : Prop extends Facts₀ where

variable [Facts]
-- ==== Proof.ModReluSpec.lean ====
/-
  The masked complex modReLU, entry by entry, on the extended reals.

  An entry is a complex number z = a + i·b with a row bias β.  Its modulus is |z| = sqrt (a·a + b·b).  Off the
  origin (|z| > 0) both components are rescaled by the gain  max (|z| + β) 0 / |z|;  at the origin (|z| = 0, or a
  modulus that is not above zero) the entry is kept as it is, and the divisor that the gain would have is replaced by
  one so that no quotient by zero is formed.  The result has two planes: the rescaled real parts and the rescaled
  imaginary parts, each a function of the two input planes and of the bias row, index by index: entry (r, l) reads
  the inputs at (r, l) and the bias at (0, l).
-/
import Idealize.ShloMosaic.PureOps.Ideal
import Idealize.ShloMosaic.Lib.ValueIdx

noncomputable section

namespace ModRelu

open Idealize.ShloMosaic Idealize.ShloMosaic.ValueIdx

/-- The modulus of a + i·b. -/
def modulus (a b : EReal) : EReal := Ideal.sqrt (a * a + b * b)

/-- The one-bit test "the modulus is strictly above zero": the entry is off the origin. -/
def offOrigin (a b : EReal) : BitVec 1 := Ideal.cmp .ogt (modulus a b) (Ideal.ofBits .f32 0x00000000#32)

/-- The gain max (|z| + β) 0 / |z|, its divisor replaced by one where the entry is not off the origin. -/
def gain (a b β : EReal) : EReal :=
  Ideal.div (max (modulus a b + β) (Ideal.ofBits .f32 0x00000000#32))
    (Scalar.select (offOrigin a b) (modulus a b) (Ideal.ofBits .f32 0x3F800000#32))

/-- One component `x` of the activated entry (`x` is `a` for the real plane and `b` for the imaginary one):
    rescaled by the gain off the origin, kept at the origin. -/
def act (a b β x : EReal) : EReal := Scalar.select (offOrigin a b) (gain a b β * x) x

/-- The two input planes and each result plane: 200000 rows of 128 lanes. -/
abbrev Plane : Shape := ⟨2, ![200000, 128]⟩
/-- The bias: one row of 128 lanes. -/
abbrev BiasRow : Shape := ⟨2, ![1, 128]⟩

/-- The bias entry that lane `l` of any row reads. -/
abbrev biasAt (l : Fin 128) : BiasRow.Idx := ix2 (0 : Fin 1) l

/-- The real plane of the result: entry `i` from the inputs at `i` and the bias at the lane of `i`. -/
def actRe (x y : Plane.Idx → EReal) (β : BiasRow.Idx → EReal) : Plane.Idx → EReal :=
  fun i => act (x i) (y i) (β (biasAt ⟨(i 1).val, (i 1).isLt⟩)) (x i)

/-- The imaginary plane of the result. -/
def actIm (x y : Plane.Idx → EReal) (β : BiasRow.Idx → EReal) : Plane.Idx → EReal :=
  fun i => act (x i) (y i) (β (biasAt ⟨(i 1).val, (i 1).isLt⟩)) (y i)

/-- A plane with a leading axis of extent one put in front. -/
abbrev Lifted : Shape := ⟨3, ![1, 200000, 128]⟩
/-- The result: the real plane and the imaginary plane, stacked along a new leading axis of extent two. -/
abbrev Stacked : Shape := ⟨3, ![2, 200000, 128]⟩

theorem lifted : Plane.BroadcastsInDim Lifted (![1, 2] : Fin 2 → Fin Lifted.rank) := by decide
theorem joins : Shape.Concatenates [Lifted, Lifted] Stacked 0 := by decide

/-- Two planes stacked: each gets a leading axis of extent one, and the two are joined along it, the first plane at
    leading coordinate 0 and the second at leading coordinate 1. -/
def stack (p q : Plane.Idx → EReal) : Stacked.Idx → EReal :=
  concatenate Stacked 0 [⟨Lifted, broadcastInDim Lifted ![1, 2] lifted p⟩, ⟨Lifted, broadcastInDim Lifted ![1, 2] lifted q⟩] joins

/-- The whole result: the activated real plane over the activated imaginary plane. -/
def result (x y : Plane.Idx → EReal) (β : BiasRow.Idx → EReal) : Stacked.Idx → EReal :=
  stack (actRe x y β) (actIm x y β)

end ModRelu

end
-- ==== Proof.RefPlanes.lean ====
/-
  The reference's two planes, entry by entry.

  The reference computes on whole planes: the modulus plane sqrt (x·x + y·y), the off-origin mask, the divisor plane
  (the modulus where the mask is set, one elsewhere), the bias row laid out over all rows, the gain plane
  max (modulus + bias) 0 / divisor, and each component rescaled where the mask is set and kept elsewhere.  Each of these
  operations is entrywise, and the laid out bias reads the bias row at the entry's lane, so each result plane at an
  entry is the activation of the spec at that entry.
-/
import proofs.«117624_j6390911336495_1_alg».proof.Proof.ModReluSpec
import proofs.«117624_j6390911336495_1_alg».proof.Proof.Gen.ReferenceIdeal.Read

noncomputable section

namespace ModRelu.Ref

open Idealize.ShloMosaic Idealize.ShloMosaic.ValueIdx Cert.ReferenceIdeal Cert.ReferenceIdeal.Read

/-- The bias entry the laid out bias reads at an entry of the plane is the one on that entry's lane. -/
theorem bias_lane (i : S200000x128.Idx) : idx_main_v7 i = biasAt ⟨(i 1).val, (i 1).isLt⟩ :=
  funext fun a => match a with
    | ⟨0, _⟩ => rfl
    | ⟨1, _⟩ => rfl

/-- The real plane the reference computes is the spec's. -/
theorem real_plane (x y : Vec Ideal S200000x128 .f32) (β : Vec Ideal S1x128 .f32) :
    val_main_v12 (F := Ideal) x y β = actRe x y β := by
  funext i
  simp only [val_main_v12_apply, val_main_v11_apply, val_main_v10_apply, val_main_v9_apply, val_main_call1_v0_apply,
    val_main_call1_cst_apply, val_main_v8_apply, val_main_v7_apply, val_main_v6_apply, val_main_call0_v1_apply,
    val_main_call0_v0_apply, val_main_cst_0_apply, val_main_v5_apply, val_main_v4_apply, val_main_cst_apply,
    val_main_v3_apply, val_main_v2_apply, val_main_v1_apply, val_main_v0_apply, bias_lane]
  rfl

/-- The imaginary plane the reference computes is the spec's. -/
theorem imag_plane (x y : Vec Ideal S200000x128 .f32) (β : Vec Ideal S1x128 .f32) :
    val_main_v14 (F := Ideal) x y β = actIm x y β := by
  funext i
  simp only [val_main_v14_apply, val_main_v13_apply, val_main_v10_apply, val_main_v9_apply, val_main_call1_v0_apply,
    val_main_call1_cst_apply, val_main_v8_apply, val_main_v7_apply, val_main_v6_apply, val_main_call0_v1_apply,
    val_main_call0_v0_apply, val_main_cst_0_apply, val_main_v5_apply, val_main_v4_apply, val_main_cst_apply,
    val_main_v3_apply, val_main_v2_apply, val_main_v1_apply, val_main_v0_apply, bias_lane]
  rfl

/-- The reference's result — its two planes, each given a leading axis of extent one, joined along it — is the spec's. -/
theorem stacked (x y : Vec Ideal S200000x128 .f32) (β : Vec Ideal S1x128 .f32) :
    val_main_v17 (F := Ideal) x y β = result x y β := by
  unfold val_main_v17 val_main_v15 val_main_v16
  rw [real_plane, imag_plane]
  rfl

end ModRelu.Ref

end
-- ==== Proof.TileBody.lean ====
/-
  One tile of the kernel, entry by entry.

  The kernel body works on a tile of 2000 rows by 128 lanes of each input plane and on the whole bias row.  Every
  operation in it is entrywise except the bias, which is laid out over the rows of the tile: entry (r, l) of the laid
  out bias is the bias row's entry (0, l).  So entry (r, l) of either stored value is the activation of the spec at the
  tile's entries (r, l) and the bias entry (0, l).
-/
import proofs.«117624_j6390911336495_1_alg».proof.Proof.ModReluSpec
import proofs.«117624_j6390911336495_1_alg».proof.Proof.Gen.KernelIdeal.Skeleton
import Idealize.ShloMosaic.Lib.ValueIdx
import Idealize.ShloMosaic.Lib.Pipeline.Value

noncomputable section

namespace ModRelu.Tile

open Idealize.ShloMosaic Idealize.ShloMosaic.ValueIdx Cert.KernelIdeal Cert.KernelIdeal.Gen

/-- The bias row laid out over a tile reads, at (r, l), the row's entry (0, l). -/
theorem bias_laid_out (β : Vec Ideal S1x128 .f32) (y : S2000x128.Idx) :
    broadcastTo S2000x128 β broadcasts_S1x128_S2000x128 y = β (biasAt ⟨(y 1).val, (y 1).isLt⟩) :=
  broadcastTo_apply β broadcasts_S1x128_S2000x128 y (biasAt ⟨(y 1).val, (y 1).isLt⟩) (fun a => match a with
    | ⟨0, _⟩ => by show 0 = if (1 : Nat) = 1 then 0 else _; rw [if_pos rfl]
    | ⟨1, _⟩ => by show (y 1).val = if (128 : Nat) = 1 then 0 else _; rw [if_neg (by decide)]; rfl)

/-- The stored real part of a tile, at an entry. -/
theorem stored_re (x y : Vec Ideal S2000x128 .f32) (β : Vec Ideal S1x128 .f32) (j : S2000x128.Idx) :
    k0_pay4 (F := Ideal) x y β j = act (x j) (y j) (β (biasAt ⟨(j 1).val, (j 1).isLt⟩)) (x j) := by
  unfold k0_pay4 k0_pay3 k0_pay2 k0_pay1
  simp only [select_apply, mulf_apply, addf_apply, divf_apply, maximumf_apply, cmpf_apply, broadcast_apply]
  rw [bias_laid_out]
  rfl

/-- The stored imaginary part of a tile, at an entry. -/
theorem stored_im (x y : Vec Ideal S2000x128 .f32) (β : Vec Ideal S1x128 .f32) (j : S2000x128.Idx) :
    k0_pay5 (F := Ideal) x y β j = act (x j) (y j) (β (biasAt ⟨(j 1).val, (j 1).isLt⟩)) (y j) := by
  unfold k0_pay5 k0_pay3 k0_pay2 k0_pay1
  simp only [select_apply, mulf_apply, addf_apply, divf_apply, maximumf_apply, cmpf_apply, broadcast_apply]
  rw [bias_laid_out]
  rfl

end ModRelu.Tile

end
-- ==== Proof.KernelPlanes.lean ====
/-
  The kernel's two result planes after its run.

  The kernel walks the 200000 rows in 100 tiles of 2000 rows; at point `t` every tiled operand sits on rows
  2000·t … 2000·t + 1999 and all 128 lanes, and the bias row is the same whole row at every point.  What point `t`
  writes back to either result plane is therefore the tile `t` of the spec's plane: the tile's entry (r, l) is the
  activation at the inputs' entry (2000·t + r, l) and the bias entry (0, l).  The 100 tiles cover every entry of a
  plane (entry (r, l) lies in tile r / 2000), so after the run each result plane IS the spec's plane of the argument
  arrays.
-/
import proofs.«117624_j6390911336495_1_alg».proof.Proof.ModReluSpec
import proofs.«117624_j6390911336495_1_alg».proof.Proof.TileBody
import proofs.«117624_j6390911336495_1_alg».proof.Proof.Gen.KernelIdeal.Frame
import Idealize.ShloMosaic.Lib.Pipeline.Value

set_option maxRecDepth 16384

noncomputable section

namespace ModRelu.Kernel

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ)

/-- The corner a whole-tile access starts at. -/
theorem origin_zero : (![0, 0] : Fin 2 → Nat) = fun _ => 0 := funext fun a => by fin_cases a <;> rfl

/-- Where each operand's tile sits at point `t`, in tiles: the four planes on row-tile `t`, lane-tile 0; the bias row
    on its one tile. Decided over the 100 points. -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back to the real plane is tile `t` of the spec's real plane of the argument arrays. -/
theorem flushed_re (c : Dev nD) (t : Fin cfg0.N) :
    (dats m 0 c).flushed 3 t = ((cfg0.win 3).blk t).view.read (Elt Ideal) (actRe (V m c main_arg0) (V m c main_arg1) (V m c main_arg2)) := by
  show (cfg0.win 3).cut (grid0.coords t) ((dats m 0 c).after 3 t) = _
  rw [after0_3]
  unfold out0_3
  rw [View.canon_unit_zero origin_zero]
  simp only [View.ld_unit_zero (S := S2000x128) origin_zero, View.ld_unit_zero (S := S1x128) origin_zero]
  funext j
  show k0_pay4 (iblk m c 0 t) (iblk m c 1 t) (iblk m c 2 t) j
      = actRe (V m c main_arg0) (V m c main_arg1) (V m c main_arg2) (((cfg0.win 3).blk t).view.emb j)
  refine (Tile.stored_re (iblk m c 0 t) (iblk m c 1 t) (iblk m c 2 t) j).trans ?_
  obtain ⟨e00, e01, e10, e11, e20, e21, e30, e31, e40, e41⟩ := tile_index t
  have hx : iblk m c 0 t j = V m c main_arg0 (((cfg0.win 3).blk t).view.emb j) := by
    show V m c main_arg0 (((cfg0.win 0).blk t).view.emb j) = V m c main_arg0 (((cfg0.win 3).blk t).view.emb j)
    refine congrArg (V m c main_arg0) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * (j 1).val = win0_3.index t (1 : Fin 2) * 128 + 1 * (j 1).val; omega
  have hy : iblk m c 1 t j = V m c main_arg1 (((cfg0.win 3).blk t).view.emb j) := by
    show V m c main_arg1 (((cfg0.win 1).blk t).view.emb j) = V m c main_arg1 (((cfg0.win 3).blk t).view.emb j)
    refine congrArg (V m c main_arg1) (funext fun a => Fin.ext ?_)
    match a with
    | ⟨0, _⟩ => show win0_1.index t (0 : Fin 2) * 2000 + 1 * (j 0).val = win0_3.index t (0 : Fin 2) * 2000 + 1 * (j 0).val; omega
    | ⟨1, _⟩ => show win0_1.index t (1 : Fin 2) * 128 + 1 * (j 1).val = win0_3.index t (1 : Fin 2) * 128 + 1 * (j 1).val; omega
  have hb : iblk m c 2 t (biasAt ⟨(j 1).val, (j 1).isLt⟩)
      = V m c main_arg2 (biasAt ⟨((((cfg0.win 3).blk t).view.emb j) 1).val, ((((cfg0.win 3).blk t).view.emb j) 1).isLt⟩) := by
    show V m c main_arg2 (((cfg0.win 2).blk t).view.emb (biasAt ⟨(j 1).val, (j 1).isLt⟩)) = _
    refine congrArg (V m c main_arg2) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  unfold actRe
  rw [hx, hy, hb]

/-- What point `t` writes back to the imaginary plane is tile `t` of the spec's imaginary plane. -/
theorem flushed_im (c : Dev nD) (t : Fin cfg0.N) :
    (dats m 0 c).flushed 4 t = ((cfg0.win 4).blk t).view.read (Elt Ideal) (actIm (V m c main_arg0) (V m c main_arg1) (V m c main_arg2)) := by
  show (cfg0.win 4).cut (grid0.coords t) ((dats m 0 c).after 4 t) = _
  rw [after0_4]
  unfold out0_4
  rw [View.canon_unit_zero origin_zero]
  simp only [View.ld_unit_zero (S := S2000x128) origin_zero, View.ld_unit_zero (S := S1x128) origin_zero]
  funext j
  show k0_pay5 (iblk m c 0 t) (iblk m c 1 t) (iblk m c 2 t) j
      = actIm (V m c main_arg0) (V m c main_arg1) (V m c main_arg2) (((cfg0.win 4).blk t).view.emb j)
  refine (Tile.stored_im (iblk m c 0 t) (iblk m c 1 t) (iblk m c 2 t) j).trans ?_
  obtain ⟨e00, e01, e10, e11, e20, e21, e30, e31, e40, e41⟩ := tile_index t
  have hx : iblk m c 0 t j = V m c main_arg0 (((cfg0.win 4).blk t).view.emb j) := by
    show V m c main_arg0 (((cfg0.win 0).blk t).view.emb j) = V m c main_arg0 (((cfg0.win 4).blk t).view.emb j)
    refine congrArg (V m c main_arg0) (funext fun a => Fin.ext ?_)
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 128 + 1 * (j 1).val = win0_4.index t (1 : Fin 2) * 128 + 1 * (j 1).val; omega
  have hy : iblk m c 1 t j = V m c main_arg1 (((cfg0.win 4).blk t).view.emb j) := by
    show V m c main_arg1 (((cfg0.win 1).blk t).view.emb j) = V m c main_arg1 (((cfg0.win 4).blk t).view.emb j)
    refine congrArg (V m c main_arg1) (funext fun a => Fin.ext ?_)
    match a with
    | ⟨0, _⟩ => show win0_1.index t (0 : Fin 2) * 2000 + 1 * (j 0).val = win0_4.index t (0 : Fin 2) * 2000 + 1 * (j 0).val; omega
    | ⟨1, _⟩ => show win0_1.index t (1 : Fin 2) * 128 + 1 * (j 1).val = win0_4.index t (1 : Fin 2) * 128 + 1 * (j 1).val; omega
  have hb : iblk m c 2 t (biasAt ⟨(j 1).val, (j 1).isLt⟩)
      = V m c main_arg2 (biasAt ⟨((((cfg0.win 4).blk t).view.emb j) 1).val, ((((cfg0.win 4).blk t).view.emb j) 1).isLt⟩) := by
    show V m c main_arg2 (((cfg0.win 2).blk t).view.emb (biasAt ⟨(j 1).val, (j 1).isLt⟩)) = _
    refine congrArg (V m c main_arg2) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_4.index t (1 : Fin 2) * 128 + 1 * (j 1).val; omega
  unfold actIm
  rw [hx, hy, hb]

/-- An entry of the plane lies in the tile point `t` writes back iff each coordinate lies in the tile's range. -/
theorem mem_tile_re (t : Fin cfg0.N) (i : S200000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v0_0).slice (win0_3.rect t)).set ↔ _
  rw [View.set_slice_whole, Rect.mem_set_unit]
  exact Iff.rfl

/-- Every entry of the plane lies in the tile of the point numbered by its row divided by 2000. -/
theorem cover_re (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  have hN : (i 0).val / 2000 < cfg0.N := by rw [show cfg0.N = 100 from N_0]; omega
  obtain ⟨-, -, -, -, -, -, e30, e31, e40, e41⟩ := tile_index ⟨(i 0).val / 2000, hN⟩
  refine ⟨⟨(i 0).val / 2000, hN⟩, flush0_3 _, ?_⟩
  rw [mem_tile_re]
  intro a
  match a with
  | ⟨0, _⟩ =>
    show win0_3.index ⟨(i 0).val / 2000, hN⟩ (0 : Fin 2) * 2000 ≤ (i 0).val ∧ (i 0).val < win0_3.index ⟨(i 0).val / 2000, hN⟩ (0 : Fin 2) * 2000 + 2000
    have ht : (⟨(i 0).val / 2000, hN⟩ : Fin cfg0.N).val = (i 0).val / 2000 := rfl
    omega
  | ⟨1, _⟩ =>
    show win0_3.index ⟨(i 0).val / 2000, hN⟩ (1 : Fin 2) * 128 ≤ (i 1).val ∧ (i 1).val < win0_3.index ⟨(i 0).val / 2000, hN⟩ (1 : Fin 2) * 128 + 128
    omega

/-- An entry of the plane lies in the tile point `t` writes back iff each coordinate lies in the tile's range. -/
theorem mem_tile_im (t : Fin cfg0.N) (i : S200000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v0_1).slice (win0_4.rect t)).set ↔ _
  rw [View.set_slice_whole, Rect.mem_set_unit]
  exact Iff.rfl

/-- Every entry of the plane lies in the tile of the point numbered by its row divided by 2000. -/
theorem cover_im (i : S200000x128.Idx) :
    ∃ t : Fin cfg0.N, (cfg0.win 4).flush t = true ∧ i ∈ ((cfg0.win 4).blk t).view.set := by
  have hi0 : (i 0).val < 200000 := (i 0).isLt
  have hi1 : (i 1).val < 128 := (i 1).isLt
  have hN : (i 0).val / 2000 < cfg0.N := by rw [show cfg0.N = 100 from N_0]; omega
  obtain ⟨-, -, -, -, -, -, e30, e31, e40, e41⟩ := tile_index ⟨(i 0).val / 2000, hN⟩
  refine ⟨⟨(i 0).val / 2000, hN⟩, flush0_4 _, ?_⟩
  rw [mem_tile_im]
  intro a
  match a with
  | ⟨0, _⟩ =>
    show win0_4.index ⟨(i 0).val / 2000, hN⟩ (0 : Fin 2) * 2000 ≤ (i 0).val ∧ (i 0).val < win0_4.index ⟨(i 0).val / 2000, hN⟩ (0 : Fin 2) * 2000 + 2000
    have ht : (⟨(i 0).val / 2000, hN⟩ : Fin cfg0.N).val = (i 0).val / 2000 := rfl
    omega
  | ⟨1, _⟩ =>
    show win0_4.index ⟨(i 0).val / 2000, hN⟩ (1 : Fin 2) * 128 ≤ (i 1).val ∧ (i 1).val < win0_4.index ⟨(i 0).val / 2000, hN⟩ (1 : Fin 2) * 128 + 128
    omega

/-- The real plane after the run. -/
theorem final_re (c : Dev nD) :
    (dats m 0 c).arrAt 3 cfg0.N = actRe (V m c main_arg0) (V m c main_arg1) (V m c main_arg2) :=
  (dats m 0 c).arrAt_eq_of_cover 3 (actRe (V m c main_arg0) (V m c main_arg1) (V m c main_arg2))
    (fun t _ => flushed_re m c t) cover_re

/-- The imaginary plane after the run. -/
theorem final_im (c : Dev nD) :
    (dats m 0 c).arrAt 4 cfg0.N = actIm (V m c main_arg0) (V m c main_arg1) (V m c main_arg2) :=
  (dats m 0 c).arrAt_eq_of_cover 4 (actIm (V m c main_arg0) (V m c main_arg1) (V m c main_arg2))
    (fun t _ => flushed_im m c t) cover_im

end ModRelu.Kernel

end
-- ==== Proof.KernelRun.lean ====
/-
  The kernel program's run, read.

  After the tiled region the program gives each result plane a leading axis of extent one and joins the two along it.
  The region leaves the two result planes at the spec's planes of the argument arrays (every tile written back is the
  spec's tile and the tiles cover the planes), the lines after it read exactly those two arrays, and so the program's
  result is the spec's stacked result; the argument arrays are only read.
-/
import proofs.«117624_j6390911336495_1_alg».proof.Proof.ModReluSpec
import proofs.«117624_j6390911336495_1_alg».proof.Proof.KernelPlanes
import proofs.«117624_j6390911336495_1_alg».proof.Proof.Gen.KernelIdeal.Frame
import Idealize.ShloMosaic.Lib.Pipeline.Value
import Idealize.ShloMosaic.Lib.StableHlo.Run

set_option maxRecDepth 16384

noncomputable section

namespace ModRelu.Kernel

open Idealize.ShloMosaic Idealize.ShloMosaic.TcCoe Idealize.ShloMosaic.ValueIdx Idealize.SL.Sem
open Cert.KernelIdeal Cert.KernelIdeal.Gen Idealize.ShloMosaic.StableHlo
open Idealize.ShloMosaic.Pipeline (Dat Cfg Window)

variable (m : (ℓ : Loc nD τ sig) → Buf (Elt Ideal) ℓ) (ρ : Dev nD → PrngReg)

/-- What the lines after the region leave in the result buffer: the two planes the region left, stacked. -/
theorem tail_value (c : Dev nD) :
    Pipeline.afterTail₀ cfgs (dats m) 0 (V0 m) [hostOps1] c main_v3
      = result (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have h3 : Pipeline.withArrays (cfgs 0).spec c (V0 m c) (fun w => (dats m 0 c).arrAt w (cfgs 0).N) (Proc.devRef .tc main_v0_0)
      = actRe (m ((c : Thread nD τ).loc main_arg0)) (m ((c : Thread nD τ).loc main_arg1)) (m ((c : Thread nD τ).loc main_arg2)) :=
    (Pipeline.withArrays_arr spec0 launch0.win.arr_inj c (V0 m c) (fun w => (dats m 0 c).arrAt w cfg0.N) 3).trans (final_re m c)
  have h4 : Pipeline.withArrays (cfgs 0).spec c (V0 m c) (fun w => (dats m 0 c).arrAt w (cfgs 0).N) (Proc.devRef .tc main_v0_1)
      = actIm (m ((c : Thread nD τ).loc main_arg0)) (m ((c : Thread nD τ).loc main_arg1)) (m ((c : Thread nD τ).loc main_arg2)) :=
    (Pipeline.withArrays_arr spec0 launch0.win.arr_inj c (V0 m c) (fun w => (dats m 0 c).arrAt w cfg0.N) 4).trans (final_im m c)
  rw [h3, h4]
  rfl

/-- The result buffer is no operand of the tiled region: the region passes it by. -/
theorem result_bypasses : main_v3 ∈ Pipeline.restRefs sig spec0 :=
  Pipeline.mem_restRefs_of main_v3 rfl (by decide)

/-- Every weakly fair execution of the kernel program ends with the result buffer at the spec's result of the
    argument arrays and with the argument arrays as they were. -/
theorem run : θ_run defs (onTc (τ := τ) (main (F := Ideal))) ⟨m, fun _ => 0, ρ⟩ fun r => ∀ c : Dev nD,
      r.2.mem ((c.tc : Thread nD τ).loc main_v3)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v3 result_bypasses).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end ModRelu.Kernel

end
-- ==== Proof.lean ====
/-
  A masked complex modReLU: the tiled kernel against the whole-plane reference.

  Both programs take two planes x, y (the real and imaginary parts of 200000 × 128 complex entries) and a bias row β of
  128 lanes, and return the two activated planes stacked along a new leading axis.  Entry by entry, with
  |z| = sqrt (x·x + y·y): off the origin (|z| > 0) each component is multiplied by max (|z| + β) 0 / |z|; elsewhere it is
  kept, and the divisor is replaced by one there so that no quotient by zero is formed (ModReluSpec).

  The reference applies these operations to whole planes, the bias row laid out over all rows; each operation is
  entrywise, so each of its planes is the spec's plane (RefPlanes).  The kernel applies the same operations to tiles of
  2000 rows, the bias row laid out over the tile; a tile's entry is the spec's activation at that entry (TileBody),
  what each of the 100 grid points writes back is the spec's tile, the tiles cover the planes (KernelPlanes), and the
  lines after the tiled region stack the two planes exactly as the reference does (KernelRun).  On the extended
  reals the square root, the quotient, the maximum, the comparison and the select are one function each on both
  sides, and the same float constants 0 and 1 appear on both, so the two results are equal with no use of the inputs
  being finite.  The idealization rewrote nothing in the kernel, so there is nothing to preserve.
-/
import proofs.«117624_j6390911336495_1_alg».proof.Defs
import proofs.«117624_j6390911336495_1_alg».proof.Proof.Gen.Kernel
import proofs.«117624_j6390911336495_1_alg».proof.Proof.Gen.Kernel.Skeleton
import proofs.«117624_j6390911336495_1_alg».proof.Proof.Gen.Kernel.Launch
import proofs.«117624_j6390911336495_1_alg».proof.Proof.Gen.Kernel.Points
import proofs.«117624_j6390911336495_1_alg».proof.Proof.Gen.Kernel.Frame
import proofs.«117624_j6390911336495_1_alg».proof.Proof.Gen.KernelIdeal
import proofs.«117624_j6390911336495_1_alg».proof.Proof.Gen.KernelIdeal.Skeleton
import proofs.«117624_j6390911336495_1_alg».proof.Proof.Gen.KernelIdeal.Launch
import proofs.«117624_j6390911336495_1_alg».proof.Proof.Gen.KernelIdeal.Points
import proofs.«117624_j6390911336495_1_alg».proof.Proof.Gen.KernelIdeal.Frame
import proofs.«117624_j6390911336495_1_alg».proof.Proof.Gen.ReferenceIdeal
import proofs.«117624_j6390911336495_1_alg».proof.Proof.Gen.Pre_finite_inputs
import proofs.«117624_j6390911336495_1_alg».proof.Proof.Gen.ReferenceIdeal.Run
import proofs.«117624_j6390911336495_1_alg».proof.Proof.Gen.ReferenceIdeal.Read
import proofs.«117624_j6390911336495_1_alg».proof.Proof.ModReluSpec
import proofs.«117624_j6390911336495_1_alg».proof.Proof.RefPlanes
import proofs.«117624_j6390911336495_1_alg».proof.Proof.KernelRun
import Idealize.ShloMosaic.Adequacy
import Idealize.ShloMosaic.Init

noncomputable section

namespace Cert.Proof

open Idealize.ShloMosaic Idealize.SL.Sem

/-- The kernel program as printed runs, faults nowhere and leaves its arguments alone. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x, y and β both programs end with the spec's stacked result of those arrays. -/
theorem algebraic : Cert.algebraic_KernelIdeal_ReferenceIdeal := by
  intro m ρ m' ρ' _ hagree
  refine ⟨_, ModRelu.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v17_eq _ _ _).trans (ModRelu.Ref.stacked _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
